-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v26) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x1280 : Shape := ⟨2, ![20000, 1280]⟩
abbrev S3x4096 : Shape := ⟨2, ![3, 4096]⟩
abbrev S1024x1280 : Shape := ⟨2, ![1024, 1280]⟩
abbrev S1024 : Shape := ⟨1, ![1024]⟩
abbrev S512x1024 : Shape := ⟨2, ![512, 1024]⟩
abbrev S512 : Shape := ⟨1, ![512]⟩
abbrev S_ : Shape := ⟨0, ![]⟩

class Facts : Prop where
  bcast_S_S20000x1280 : S_.BroadcastsInDim S20000x1280 (![] : Fin 0 → Fin S20000x1280.rank)
  reducesTo_S20000x1280_S_d0_1 : S20000x1280.ReducesTo [0, 1] S_
  h_S_ : 0 < S_.numel
  bcast_S_S1024x1280 : S_.BroadcastsInDim S1024x1280 (![] : Fin 0 → Fin S1024x1280.rank)
  reducesTo_S1024x1280_S_d0_1 : S1024x1280.ReducesTo [0, 1] S_
  bcast_S_S1024 : S_.BroadcastsInDim S1024 (![] : Fin 0 → Fin S1024.rank)
  reducesTo_S1024_S_d0 : S1024.ReducesTo [0] S_
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg8 : FVec F S512x1024 .f32) (main_arg9 : FVec F S512 .f32) (main_v33 : IVec S_ 1) : IVec S_ 1 :=
  let main_v34 : FVec F S512x1024 .f32 := Host.absf main_arg8
  let main_cst_12 : FVec F S_ .f32 := constant S_ .f32 0x7F800000#32
  let main_v35 : FVec F S512x1024 .f32 := broadcastInDim S512x1024 ![] bcast_S_S512x1024 main_cst_12
  let main_v36 : IVec S512x1024 1 := cmpf .olt main_v34 main_v35
  let main_c_13 : IVec S_ 1 := constantI S_ 1 1#1
  let main_v37 : IVec S_ 1 := (fun x v => Host.reduce IntOp.andi x v reducesTo_S512x1024_S_d0_1 h_S_) main_v36 main_c_13
  let main_v38 : IVec S_ 1 := andi main_v33 main_v37
  let main_v39 : FVec F S512 .f32 := Host.absf main_arg9
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  main_v43

def fn_part1 {F : FTy → Type} [FloatOps F] (main_arg5 : FVec F S512 .f32) (main_arg6 : FVec F S1024x1280 .f32) (main_arg7 : FVec F S1024 .f32) (main_arg8 : FVec F S512x1024 .f32) (main_arg9 : FVec F S512 .f32) (main_v13 : IVec S_ 1) (main_v16 : IVec S512x1024 1) : IVec S_ 1 :=
  let main_c_5 : IVec S_ 1 := constantI S_ 1 1#1
  let main_v17 : IVec S_ 1 := (fun x v => Host.reduce IntOp.andi x v reducesTo_S512x1024_S_d0_1 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S1024x1280 .f32 := Host.absf main_arg6
  let main_cst_8 : FVec F S_ .f32 := constant S_ .f32 0x7F800000#32
  let main_v25 : FVec F S1024x1280 .f32 := broadcastInDim S1024x1280 ![] bcast_S_S1024x1280 main_cst_8
  let main_v26 : IVec S1024x1280 1 := cmpf .olt main_v24 main_v25
  let main_c_9 : IVec S_ 1 := constantI S_ 1 1#1
  let main_v27 : IVec S_ 1 := (fun x v => Host.reduce IntOp.andi x v reducesTo_S1024x1280_S_d0_1 h_S_) main_v26 main_c_9
  let main_v28 : IVec S_ 1 := andi main_v23 main_v27
  let main_v29 : FVec F S1024 .f32 := Host.absf main_arg7
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg8 main_arg9 main_v33

def fn {F : FTy → Type} [FloatOps F] (main_arg0 : FVec F S20000x1280 .f32) (main_arg1 : IVec S3x4096 32) (main_arg2 : FVec F S1024x1280 .f32) (main_arg3 : FVec F S1024 .f32) (main_arg4 : FVec F S512x1024 .f32) (main_arg5 : FVec F S512 .f32) (main_arg6 : FVec F S1024x1280 .f32) (main_arg7 : FVec F S1024 .f32) (main_arg8 : FVec F S512x1024 .f32) (main_arg9 : FVec F S512 .f32) : IVec S_ 1 :=
  let main_v0 : FVec F S20000x1280 .f32 := Host.absf main_arg0
  let main_cst : FVec F S_ .f32 := constant S_ .f32 0x7F800000#32
  let main_v1 : FVec F S20000x1280 .f32 := broadcastInDim S20000x1280 ![] bcast_S_S20000x1280 main_cst
  let main_v2 : IVec S20000x1280 1 := cmpf .olt main_v0 main_v1
  let main_c : IVec S_ 1 := constantI S_ 1 1#1
  let main_v3 : IVec S_ 1 := (fun x v => Host.reduce IntOp.andi x v reducesTo_S20000x1280_S_d0_1 h_S_) main_v2 main_c
  let main_v4 : FVec F S1024x1280 .f32 := Host.absf main_arg2
  let main_cst_0 : FVec F S_ .f32 := constant S_ .f32 0x7F800000#32
  let main_v5 : FVec F S1024x1280 .f32 := broadcastInDim S1024x1280 ![] bcast_S_S1024x1280 main_cst_0
  let main_v6 : IVec S1024x1280 1 := cmpf .olt main_v4 main_v5
  let main_c_1 : IVec S_ 1 := constantI S_ 1 1#1
  let main_v7 : IVec S_ 1 := (fun x v => Host.reduce IntOp.andi x v reducesTo_S1024x1280_S_d0_1 h_S_) main_v6 main_c_1
  let main_v8 : IVec S_ 1 := andi main_v3 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S512x1024 .f32 := Host.absf main_arg4
  let main_cst_4 : FVec F S_ .f32 := constant S_ .f32 0x7F800000#32
  let main_v15 : FVec F S512x1024 .f32 := broadcastInDim S512x1024 ![] bcast_S_S512x1024 main_cst_4
  let main_v16 : IVec S512x1024 1 := cmpf .olt main_v14 main_v15
  fn_part1 (F := F) main_arg5 main_arg6 main_arg7 main_arg8 main_arg9 main_v13 main_v16
-- ==== Kernel.lean ====
abbrev S20000x1280 : Shape := ⟨2, ![20000, 1280]⟩
abbrev S3x4096 : Shape := ⟨2, ![3, 4096]⟩
abbrev S1024x1280 : Shape := ⟨2, ![1024, 1280]⟩
abbrev S1024 : Shape := ⟨1, ![1024]⟩
abbrev S512x1024 : Shape := ⟨2, ![512, 1024]⟩
abbrev S512 : Shape := ⟨1, ![512]⟩
abbrev S20000x512 : Shape := ⟨2, ![20000, 512]⟩
abbrev S1000x1280 : Shape := ⟨2, ![1000, 1280]⟩
abbrev S1000x512 : Shape := ⟨2, ![1000, 512]⟩
abbrev S1280x1024 : Shape := ⟨2, ![1280, 1024]⟩
abbrev S1000x1024 : Shape := ⟨2, ![1000, 1024]⟩
abbrev S1x1024 : Shape := ⟨2, ![1, 1024]⟩
abbrev S1024x512 : Shape := ⟨2, ![1024, 512]⟩
abbrev S1x512 : Shape := ⟨2, ![1, 512]⟩
abbrev S_ : Shape := ⟨0, ![]⟩
abbrev S3x4096x1 : Shape := ⟨3, ![3, 4096, 1]⟩
abbrev S3x4096x1280 : Shape := ⟨3, ![3, 4096, 1280]⟩
abbrev S3x4096x640x2 : Shape := ⟨4, ![3, 4096, 640, 2]⟩
abbrev S3x640 : Shape := ⟨2, ![3, 640]⟩
abbrev S3x1280 : Shape := ⟨2, ![3, 1280]⟩
abbrev S3x1024 : Shape := ⟨2, ![3, 1024]⟩
abbrev S3x512 : Shape := ⟨2, ![3, 512]⟩
abbrev S3x1x512 : Shape := ⟨3, ![3, 1, 512]⟩

abbrev nBuf : Space → Nat
  | .hbm => 42
  | .vmem => 8
  | .smem => 0
  | _ => 0

abbrev bufTy : (tb : Table) → Fin (tcTables nBuf tb) → BufTy
  | .hbm, ⟨0, _⟩ => ⟨S20000x1280, .f32⟩
  | .hbm, ⟨1, _⟩ => ⟨S3x4096, .i32⟩
  | .hbm, ⟨2, _⟩ => ⟨S1024x1280, .f32⟩
  | .hbm, ⟨3, _⟩ => ⟨S1024, .f32⟩
  | .hbm, ⟨4, _⟩ => ⟨S512x1024, .f32⟩
  | .hbm, ⟨5, _⟩ => ⟨S512, .f32⟩
  | .hbm, ⟨6, _⟩ => ⟨S1024x1280, .f32⟩
  | .hbm, ⟨7, _⟩ => ⟨S1024, .f32⟩
  | .hbm, ⟨8, _⟩ => ⟨S512x1024, .f32⟩
  | .hbm, ⟨9, _⟩ => ⟨S512, .f32⟩
  | .hbm, ⟨10, _⟩ => ⟨S1024x1280, .bf16⟩
  | .hbm, ⟨11, _⟩ => ⟨S512x1024, .bf16⟩
  | .hbm, ⟨12, _⟩ => ⟨S20000x512, .f32⟩
  | .hbm, ⟨13, _⟩ => ⟨S_, .i32⟩
  | .hbm, ⟨14, _⟩ => ⟨S3x4096, .i32⟩
  | .hbm, ⟨15, _⟩ => ⟨S3x4096, .i1⟩
  | .hbm, ⟨16, _⟩ => ⟨S_, .i32⟩
  | .hbm, ⟨17, _⟩ => ⟨S3x4096, .i32⟩
  | .hbm, ⟨18, _⟩ => ⟨S3x4096, .i32⟩
  | .hbm, ⟨19, _⟩ => ⟨S3x4096, .i32⟩
  | .hbm, ⟨20, _⟩ => ⟨S3x4096x1, .i32⟩
  | .hbm, ⟨21, _⟩ => ⟨S3x4096x1280, .f32⟩
  | .hbm, ⟨22, _⟩ => ⟨S3x4096x640x2, .f32⟩
  | .hbm, ⟨23, _⟩ => ⟨S_, .f32⟩
  | .hbm, ⟨24, _⟩ => ⟨S3x640, .f32⟩
  | .hbm, ⟨25, _⟩ => ⟨S_, .f32⟩
  | .hbm, ⟨26, _⟩ => ⟨S3x640, .f32⟩
  | .hbm, ⟨27, _⟩ => ⟨S3x640, .f32⟩
  | .hbm, ⟨28, _⟩ => ⟨S_, .f32⟩
  | .hbm, ⟨29, _⟩ => ⟨S3x640, .f32⟩
  | .hbm, ⟨30, _⟩ => ⟨S3x1280, .f32⟩
  | .hbm, ⟨31, _⟩ => ⟨S1280x1024, .f32⟩
  | .hbm, ⟨32, _⟩ => ⟨S3x1024, .f32⟩
  | .hbm, ⟨33, _⟩ => ⟨S1x1024, .f32⟩
  | .hbm, ⟨34, _⟩ => ⟨S3x1024, .f32⟩
  | .hbm, ⟨35, _⟩ => ⟨S3x1024, .f32⟩
  | .hbm, ⟨36, _⟩ => ⟨S1024x512, .f32⟩
  | .hbm, ⟨37, _⟩ => ⟨S3x512, .f32⟩
  | .hbm, ⟨38, _⟩ => ⟨S1x512, .f32⟩
  | .hbm, ⟨39, _⟩ => ⟨S3x512, .f32⟩
  | .hbm, ⟨40, _⟩ => ⟨S3x512, .f32⟩
  | .hbm, ⟨41, _⟩ => ⟨S3x1x512, .f32⟩
  | .local _ .vmem, ⟨0, _⟩ => ⟨S1000x1280, .f32⟩
  | .local _ .vmem, ⟨1, _⟩ => ⟨S1000x1280, .f32⟩
  | .local _ .vmem, ⟨2, _⟩ => ⟨S1024x1280, .bf16⟩
  | .local _ .vmem, ⟨3, _⟩ => ⟨S1024, .f32⟩
  | .local _ .vmem, ⟨4, _⟩ => ⟨S512x1024, .bf16⟩
  | .local _ .vmem, ⟨5, _⟩ => ⟨S512, .f32⟩
  | .local _ .vmem, ⟨6, _⟩ => ⟨S1000x512, .f32⟩
  | .local _ .vmem, ⟨7, _⟩ => ⟨S1000x512, .f32⟩
  | _, _ => ⟨S20000x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_v3 : Ref sig .tc := ⟨.hbm, 14, rfl⟩
abbrev main_v4 : Ref sig .tc := ⟨.hbm, 15, rfl⟩
abbrev main_c_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1280 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1000x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bitsLt_bf16_f32 : FTy.bits .bf16 < FTy.bits .f32
  inb_S1000x1280_S1000x1280_0_0 : ∀ a, (![0, 0] : Fin 2 → Nat) a + S1000x1280.size a ≤ S1000x1280.size a
  h_S1000x1280 : 0 < S1000x1280.numel
  inb_S1024x1280_S1024x1280_0_0 : ∀ a, (![0, 0] : Fin 2 → Nat) a + S1024x1280.size a ≤ S1024x1280.size a
  h_S1024x1280 : 0 < S1024x1280.numel
  shapeCasts_S1024x1280_S1024x1280 : S1024x1280.ShapeCasts S1024x1280
  transposes_S1024x1280_p1_0_S1280x1024 : S1024x1280.Transposes [1, 0] S1280x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1000x1024 : S1x1024.Broadcasts S1000x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  transposes_S512x1024_p1_0_S1024x512 : S512x1024.Transposes [1, 0] S1024x512
  inb_S512_S512_0 : ∀ a, (![0] : Fin 1 → Nat) a + S512.size a ≤ S512.size a
  h_S512 : 0 < S512.numel
  shapeCasts_S512_S1x512 : S512.ShapeCasts S1x512
  broadcasts_S1x512_S1000x512 : S1x512.Broadcasts S1000x512
  inb_S1000x512_S1000x512_0_0 : ∀ a, (![0, 0] : Fin 2 → Nat) a + S1000x512.size a ≤ S1000x512.size a
  h_S1000x512 : 0 < S1000x512.numel
  bcast_S_S3x4096 : S_.BroadcastsInDim S3x4096 (![] : Fin 0 → Fin S3x4096.rank)
  bcast_S3x4096_S3x4096x1_0_1 : S3x4096.BroadcastsInDim S3x4096x1 (![0, 1] : Fin 2 → Fin S3x4096x1.rank)
  shapeCasts_S3x4096x1280_S3x4096x640x2 : S3x4096x1280.ShapeCasts S3x4096x640x2
  reducesTo_S3x4096x640x2_S3x640_d1_3 : S3x4096x640x2.ReducesTo [1, 3] S3x640
  h_S_ : 0 < S_.numel
  bcast_S_S3x640 : S_.BroadcastsInDim S3x640 (![] : Fin 0 → Fin S3x640.rank)
  concatenates_S3x640_S3x640_S3x1280_d1 : Shape.Concatenates [S3x640, S3x640] S3x1280 1
  transposes_S1024x1280_S1280x1024_1_0 : S1024x1280.Transposes [1, 0] S1280x1024
  bcast_S1024_S1x1024_1 : S1024.BroadcastsInDim S1x1024 (![1] : Fin 1 → Fin S1x1024.rank)
  bcast_S1x1024_S3x1024_0_1 : S1x1024.BroadcastsInDim S3x1024 (![0, 1] : Fin 2 → Fin S3x1024.rank)
  transposes_S512x1024_S1024x512_1_0 : S512x1024.Transposes [1, 0] S1024x512
  bcast_S512_S1x512_1 : S512.BroadcastsInDim S1x512 (![1] : Fin 1 → Fin S1x512.rank)
  bcast_S1x512_S3x512_0_1 : S1x512.BroadcastsInDim S3x512 (![0, 1] : Fin 2 → Fin S3x512.rank)
  bcast_S3x512_S3x1x512_0_2 : S3x512.BroadcastsInDim S3x1x512 (![0, 2] : Fin 2 → Fin S3x1x512.rank)
  dot_S1000x1280_S1280x1024_S1000x1024_1_0_0_1_n_n_wf : DotDims.WF S1000x1280 S1280x1024 S1000x1024 [1] [0] [0] [1] [] []
  dot_S1000x1024_S1024x512_S1000x512_1_0_0_1_n_n_wf : DotDims.WF S1000x1024 S1024x512 S1000x512 [1] [0] [0] [1] [] []
  gather_S20000x1280_S3x4096x1_S3x4096x1280_2_0_n_n_0_2_11280_wf : GatherDims.WF S20000x1280 S3x4096x1 S3x4096x1280 [2] [0] [] [0] [] 2 ![1, 1280]
  dot_S3x1280_S1280x1024_S3x1024_1_0_0_1_n_n_wf : DotDims.WF S3x1280 S1280x1024 S3x1024 [1] [0] [0] [1] [] []
  dot_S3x1024_S1024x512_S3x512_1_0_0_1_n_n_wf : DotDims.WF S3x1024 S1024x512 S3x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x1280.size a ≤ S20000x1280.size a
  hwx0_0 : ∀ i : grid0.Coords, EltTy.bits .f32 = 32 ∨ (Rect.block (s := S20000x1280) S1000x1280.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1280.size a ≤ S1024x1280.size a
  hwx0_1 : ∀ i : grid0.Coords, EltTy.bits .bf16 = 32 ∨ (Rect.block (s := S1024x1280) S1024x1280.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S512x1024.size a
  hwx0_3 : ∀ i : grid0.Coords, EltTy.bits .bf16 = 32 ∨ (Rect.block (s := S512x1024) S512x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x512.size a ≤ S20000x512.size a
  hwx0_5 : ∀ i : grid0.Coords, EltTy.bits .f32 = 32 ∨ (Rect.block (s := S20000x512) S1000x512.size (cc0_transform_5 i) (hinb0_5 i)).WholeWords (EltTy.packing .f32)

variable [Facts₀]

def dot_S1000x1280_S1280x1024_S1000x1024_1_0_0_1_n_n : DotDims S1000x1280 S1280x1024 S1000x1024 where
  lhsContracting := [1]
  rhsContracting := [0]
  lhsNonContracting := [0]
  rhsNonContracting := [1]
  lhsBatch := []
  rhsBatch := []
  wf := dot_S1000x1280_S1280x1024_S1000x1024_1_0_0_1_n_n_wf
def dot_S1000x1024_S1024x512_S1000x512_1_0_0_1_n_n : DotDims S1000x1024 S1024x512 S1000x512 where
  lhsContracting := [1]
  rhsContracting := [0]
  lhsNonContracting := [0]
  rhsNonContracting := [1]
  lhsBatch := []
  rhsBatch := []
  wf := dot_S1000x1024_S1024x512_S1000x512_1_0_0_1_n_n_wf
def gather_S20000x1280_S3x4096x1_S3x4096x1280_2_0_n_n_0_2_11280 : GatherDims S20000x1280 S3x4096x1 S3x4096x1280 where
  offsetDims := [2]
  collapsedSliceDims := [0]
  operandBatchingDims := []
  startIndicesBatchingDims := []
  startIndexMap := [0]
  indexVectorDim := 2
  sliceSizes := ![1, 1280]
  wf := gather_S20000x1280_S3x4096x1_S3x4096x1280_2_0_n_n_0_2_11280_wf
def dot_S3x1280_S1280x1024_S3x1024_1_0_0_1_n_n : DotDims S3x1280 S1280x1024 S3x1024 where
  lhsContracting := [1]
  rhsContracting := [0]
  lhsNonContracting := [0]
  rhsNonContracting := [1]
  lhsBatch := []
  rhsBatch := []
  wf := dot_S3x1280_S1280x1024_S3x1024_1_0_0_1_n_n_wf
def dot_S3x1024_S1024x512_S3x512_1_0_0_1_n_n : DotDims S3x1024 S1024x512 S3x512 where
  lhsContracting := [1]
  rhsContracting := [0]
  lhsNonContracting := [0]
  rhsNonContracting := [1]
  lhsBatch := []
  rhsBatch := []
  wf := dot_S3x1024_S1024x512_S3x512_1_0_0_1_n_n_wf

abbrev win0_0 : Pipeline.Window sig grid0 :=
  Pipeline.Window.ofSpec (Memref.whole main_arg0) S1000x1280.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1280.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1000x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S20000x1280 : Shape := ⟨2, ![20000, 1280]⟩
abbrev S3x4096 : Shape := ⟨2, ![3, 4096]⟩
abbrev S1024x1280 : Shape := ⟨2, ![1024, 1280]⟩
abbrev S1024 : Shape := ⟨1, ![1024]⟩
abbrev S512x1024 : Shape := ⟨2, ![512, 1024]⟩
abbrev S512 : Shape := ⟨1, ![512]⟩
abbrev S1280x1024 : Shape := ⟨2, ![1280, 1024]⟩
abbrev S20000x1024 : Shape := ⟨2, ![20000, 1024]⟩
abbrev S1x1024 : Shape := ⟨2, ![1, 1024]⟩
abbrev S1024x512 : Shape := ⟨2, ![1024, 512]⟩
abbrev S20000x512 : Shape := ⟨2, ![20000, 512]⟩
abbrev S1x512 : Shape := ⟨2, ![1, 512]⟩
abbrev S_ : Shape := ⟨0, ![]⟩
abbrev S3x4096x1 : Shape := ⟨3, ![3, 4096, 1]⟩
abbrev S3x4096x1280 : Shape := ⟨3, ![3, 4096, 1280]⟩
abbrev S3x4096x640x2 : Shape := ⟨4, ![3, 4096, 640, 2]⟩
abbrev S3x640 : Shape := ⟨2, ![3, 640]⟩
abbrev S3x1280 : Shape := ⟨2, ![3, 1280]⟩
abbrev S3x1024 : Shape := ⟨2, ![3, 1024]⟩
abbrev S3x512 : Shape := ⟨2, ![3, 512]⟩
abbrev S3x1x512 : Shape := ⟨3, ![3, 1, 512]⟩

abbrev nBuf : Space → Nat
  | .hbm => 49
  | .vmem => 0
  | .smem => 0
  | _ => 0

abbrev bufTy : (tb : Table) → Fin (tcTables nBuf tb) → BufTy
  | .hbm, ⟨0, _⟩ => ⟨S20000x1280, .f32⟩
  | .hbm, ⟨1, _⟩ => ⟨S3x4096, .i32⟩
  | .hbm, ⟨2, _⟩ => ⟨S1024x1280, .f32⟩
  | .hbm, ⟨3, _⟩ => ⟨S1024, .f32⟩
  | .hbm, ⟨4, _⟩ => ⟨S512x1024, .f32⟩
  | .hbm, ⟨5, _⟩ => ⟨S512, .f32⟩
  | .hbm, ⟨6, _⟩ => ⟨S1024x1280, .f32⟩
  | .hbm, ⟨7, _⟩ => ⟨S1024, .f32⟩
  | .hbm, ⟨8, _⟩ => ⟨S512x1024, .f32⟩
  | .hbm, ⟨9, _⟩ => ⟨S512, .f32⟩
  | .hbm, ⟨10, _⟩ => ⟨S1280x1024, .f32⟩
  | .hbm, ⟨11, _⟩ => ⟨S20000x1024, .f32⟩
  | .hbm, ⟨12, _⟩ => ⟨S1x1024, .f32⟩
  | .hbm, ⟨13, _⟩ => ⟨S20000x1024, .f32⟩
  | .hbm, ⟨14, _⟩ => ⟨S20000x1024, .f32⟩
  | .hbm, ⟨15, _⟩ => ⟨S1024x512, .f32⟩
  | .hbm, ⟨16, _⟩ => ⟨S20000x512, .f32⟩
  | .hbm, ⟨17, _⟩ => ⟨S1x512, .f32⟩
  | .hbm, ⟨18, _⟩ => ⟨S20000x512, .f32⟩
  | .hbm, ⟨19, _⟩ => ⟨S20000x512, .f32⟩
  | .hbm, ⟨20, _⟩ => ⟨S_, .i32⟩
  | .hbm, ⟨21, _⟩ => ⟨S3x4096, .i32⟩
  | .hbm, ⟨22, _⟩ => ⟨S3x4096, .i1⟩
  | .hbm, ⟨23, _⟩ => ⟨S_, .i32⟩
  | .hbm, ⟨24, _⟩ => ⟨S3x4096, .i32⟩
  | .hbm, ⟨25, _⟩ => ⟨S3x4096, .i32⟩
  | .hbm, ⟨26, _⟩ => ⟨S3x4096, .i32⟩
  | .hbm, ⟨27, _⟩ => ⟨S3x4096x1, .i32⟩
  | .hbm, ⟨28, _⟩ => ⟨S3x4096x1280, .f32⟩
  | .hbm, ⟨29, _⟩ => ⟨S3x4096x640x2, .f32⟩
  | .hbm, ⟨30, _⟩ => ⟨S_, .f32⟩
  | .hbm, ⟨31, _⟩ => ⟨S3x640, .f32⟩
  | .hbm, ⟨32, _⟩ => ⟨S_, .f32⟩
  | .hbm, ⟨33, _⟩ => ⟨S3x640, .f32⟩
  | .hbm, ⟨34, _⟩ => ⟨S3x640, .f32⟩
  | .hbm, ⟨35, _⟩ => ⟨S_, .f32⟩
  | .hbm, ⟨36, _⟩ => ⟨S3x640, .f32⟩
  | .hbm, ⟨37, _⟩ => ⟨S3x1280, .f32⟩
  | .hbm, ⟨38, _⟩ => ⟨S1280x1024, .f32⟩
  | .hbm, ⟨39, _⟩ => ⟨S3x1024, .f32⟩
  | .hbm, ⟨40, _⟩ => ⟨S1x1024, .f32⟩
  | .hbm, ⟨41, _⟩ => ⟨S3x1024, .f32⟩
  | .hbm, ⟨42, _⟩ => ⟨S3x1024, .f32⟩
  | .hbm, ⟨43, _⟩ => ⟨S1024x512, .f32⟩
  | .hbm, ⟨44, _⟩ => ⟨S3x512, .f32⟩
  | .hbm, ⟨45, _⟩ => ⟨S1x512, .f32⟩
  | .hbm, ⟨46, _⟩ => ⟨S3x512, .f32⟩
  | .hbm, ⟨47, _⟩ => ⟨S3x512, .f32⟩
  | .hbm, ⟨48, _⟩ => ⟨S3x1x512, .f32⟩
  | _, _ => ⟨S20000x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c : Ref sig .tc := ⟨.hbm, 20, rfl⟩
abbrev main_v10 : Ref sig .tc := ⟨.hbm, 21, rfl⟩
abbrev main_v11 : Ref sig .tc := ⟨.hbm, 22, rfl⟩
abbrev main_c_0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩

abbrev nD : Nat := 1
abbrev τ : Topo := Topo.v7x

variable {F : FTy → Type} [FloatOps F]

class Facts₀ : Prop where
  transposes_S1024x1280_S1280x1024_1_0 : S1024x1280.Transposes [1, 0] S1280x1024
  bcast_S1024_S1x1024_1 : S1024.BroadcastsInDim S1x1024 (![1] : Fin 1 → Fin S1x1024.rank)
  bcast_S1x1024_S20000x1024_0_1 : S1x1024.BroadcastsInDim S20000x1024 (![0, 1] : Fin 2 → Fin S20000x1024.rank)
  transposes_S512x1024_S1024x512_1_0 : S512x1024.Transposes [1, 0] S1024x512
  bcast_S512_S1x512_1 : S512.BroadcastsInDim S1x512 (![1] : Fin 1 → Fin S1x512.rank)
  bcast_S1x512_S20000x512_0_1 : S1x512.BroadcastsInDim S20000x512 (![0, 1] : Fin 2 → Fin S20000x512.rank)
  bcast_S_S3x4096 : S_.BroadcastsInDim S3x4096 (![] : Fin 0 → Fin S3x4096.rank)
  bcast_S3x4096_S3x4096x1_0_1 : S3x4096.BroadcastsInDim S3x4096x1 (![0, 1] : Fin 2 → Fin S3x4096x1.rank)
  shapeCasts_S3x4096x1280_S3x4096x640x2 : S3x4096x1280.ShapeCasts S3x4096x640x2
  reducesTo_S3x4096x640x2_S3x640_d1_3 : S3x4096x640x2.ReducesTo [1, 3] S3x640
  h_S_ : 0 < S_.numel
  bcast_S_S3x640 : S_.BroadcastsInDim S3x640 (![] : Fin 0 → Fin S3x640.rank)
  concatenates_S3x640_S3x640_S3x1280_d1 : Shape.Concatenates [S3x640, S3x640] S3x1280 1
  bcast_S1x1024_S3x1024_0_1 : S1x1024.BroadcastsInDim S3x1024 (![0, 1] : Fin 2 → Fin S3x1024.rank)
  bcast_S1x512_S3x512_0_1 : S1x512.BroadcastsInDim S3x512 (![0, 1] : Fin 2 → Fin S3x512.rank)
  bcast_S3x512_S3x1x512_0_2 : S3x512.BroadcastsInDim S3x1x512 (![0, 2] : Fin 2 → Fin S3x1x512.rank)
  dot_S20000x1280_S1280x1024_S20000x1024_1_0_0_1_n_n_wf : DotDims.WF S20000x1280 S1280x1024 S20000x1024 [1] [0] [0] [1] [] []
  dot_S20000x1024_S1024x512_S20000x512_1_0_0_1_n_n_wf : DotDims.WF S20000x1024 S1024x512 S20000x512 [1] [0] [0] [1] [] []
  gather_S20000x1280_S3x4096x1_S3x4096x1280_2_0_n_n_0_2_11280_wf : GatherDims.WF S20000x1280 S3x4096x1 S3x4096x1280 [2] [0] [] [0] [] 2 ![1, 1280]
  dot_S3x1280_S1280x1024_S3x1024_1_0_0_1_n_n_wf : DotDims.WF S3x1280 S1280x1024 S3x1024 [1] [0] [0] [1] [] []
  dot_S3x1024_S1024x512_S3x512_1_0_0_1_n_n_wf : DotDims.WF S3x1024 S1024x512 S3x512 [1] [0] [0] [1] [] []

variable [Facts₀]

def dot_S20000x1280_S1280x1024_S20000x1024_1_0_0_1_n_n : DotDims S20000x1280 S1280x1024 S20000x1024 where
  lhsContracting := [1]
  rhsContracting := [0]
  lhsNonContracting := [0]
  rhsNonContracting := [1]
  lhsBatch := []
  rhsBatch := []
  wf := dot_S20000x1280_S1280x1024_S20000x1024_1_0_0_1_n_n_wf
def dot_S20000x1024_S1024x512_S20000x512_1_0_0_1_n_n : DotDims S20000x1024 S1024x512 S20000x512 where
  lhsContracting := [1]
  rhsContracting := [0]
  lhsNonContracting := [0]
  rhsNonContracting := [1]
  lhsBatch := []
  rhsBatch := []
  wf := dot_S20000x1024_S1024x512_S20000x512_1_0_0_1_n_n_wf
def gather_S20000x1280_S3x4096x1_S3x4096x1280_2_0_n_n_0_2_11280 : GatherDims S20000x1280 S3x4096x1 S3x4096x1280 where
  offsetDims := [2]
  collapsedSliceDims := [0]
  operandBatchingDims := []
  startIndicesBatchingDims := []
  startIndexMap := [0]
  indexVectorDim := 2
  sliceSizes := ![1, 1280]
  wf := gather_S20000x1280_S3x4096x1_S3x4096x1280_2_0_n_n_0_2_11280_wf
def dot_S3x1280_S1280x1024_S3x1024_1_0_0_1_n_n : DotDims S3x1280 S1280x1024 S3x1024 where
  lhsContracting := [1]
  rhsContracting := [0]
  lhsNonContracting := [0]
  rhsNonContracting := [1]
  lhsBatch := []
  rhsBatch := []
  wf := dot_S3x1280_S1280x1024_S3x1024_1_0_0_1_n_n_wf
def dot_S3x1024_S1024x512_S3x512_1_0_0_1_n_n : DotDims S3x1024 S1024x512 S3x512 where
  lhsContracting := [1]
  rhsContracting := [0]
  lhsNonContracting := [0]
  rhsNonContracting := [1]
  lhsBatch := []
  rhsBatch := []
  wf := dot_S3x1024_S1024x512_S3x512_1_0_0_1_n_n_wf

class Facts : Prop extends Facts₀ where

variable [Facts]
-- ==== Proof.MlpSpec.lean ====
/-
  The protein branch of both programs is one two-layer affine map applied to every row of the embedding table:
  for a row `r` and an output column `o`,

      out[r, o] = Σ_j ( Σ_e x[r, e] · W1[j, e] + b1[j] ) · W2[o, j]  +  b2[o]        (j < 1024, e < 1280)

  over the extended reals.  The kernel computes it on blocks of 1000 rows (two matrix products into zero accumulators, the
  weights transposed inside the body), the reference on all 20000 rows at once (two `dot_general`s against transposed
  weights).  `entry` is that number, for a table of any number of rows; it depends on row `r` of the table only
  (`entry_congr`), which is what lets a block's entry be read as the whole table's.
-/
import Idealize.ShloMosaic.PureOps.Ideal
import Idealize.ShloMosaic.Lib.ValueIdx

noncomputable section

namespace Cert.Mlp

open Idealize.ShloMosaic Idealize.ShloMosaic.ValueIdx

/-- Entry `(r, o)` of the two-layer map of a table `x` with `R` rows of 1280 features: hidden width 1024, output width 512,
    the weight matrices stored output-major (`w1[j, e]`, `w2[o, j]`). -/
def entry {R : Nat} (x : (⟨2, ![R, 1280]⟩ : Shape).Idx → EReal) (w1 : (⟨2, ![1024, 1280]⟩ : Shape).Idx → EReal)
    (b1 : (⟨1, ![1024]⟩ : Shape).Idx → EReal) (w2 : (⟨2, ![512, 1024]⟩ : Shape).Idx → EReal)
    (b2 : (⟨1, ![512]⟩ : Shape).Idx → EReal) (r : Fin R) (o : Fin 512) : EReal :=
  (∑ j : Fin 1024, ((∑ e : Fin 1280, x (ix2 r e) * w1 (ix2 j e)) + b1 (ix1 j)) * w2 (ix2 o j)) + b2 (ix1 o)

/-- The entry reads row `r` of the table and nothing else of it: two tables that agree on a row (at whatever row numbers),
    with weights and biases that agree entry by entry, give the same entry. -/
theorem entry_congr {R R' : Nat} {x : (⟨2, ![R, 1280]⟩ : Shape).Idx → EReal} {x' : (⟨2, ![R', 1280]⟩ : Shape).Idx → EReal}
    {w1 w1' : (⟨2, ![1024, 1280]⟩ : Shape).Idx → EReal} {b1 b1' : (⟨1, ![1024]⟩ : Shape).Idx → EReal}
    {w2 w2' : (⟨2, ![512, 1024]⟩ : Shape).Idx → EReal} {b2 b2' : (⟨1, ![512]⟩ : Shape).Idx → EReal}
    {r : Fin R} {r' : Fin R'} (o : Fin 512)
    (hx : ∀ e : Fin 1280, x (ix2 r e) = x' (ix2 r' e)) (hw1 : ∀ (j : Fin 1024) (e : Fin 1280), w1 (ix2 j e) = w1' (ix2 j e))
    (hb1 : ∀ j : Fin 1024, b1 (ix1 j) = b1' (ix1 j)) (hw2 : ∀ j : Fin 1024, w2 (ix2 o j) = w2' (ix2 o j))
    (hb2 : b2 (ix1 o) = b2' (ix1 o)) :
    entry x w1 b1 w2 b2 r o = entry x' w1' b1' w2' b2' r' o := by
  unfold entry
  rw [hb2]
  refine congrArg (· + b2' (ix1 o)) (Finset.sum_congr rfl fun j _ => ?_)
  rw [hb1 j, hw2 j]
  refine congrArg (fun s => (s + b1' (ix1 j)) * w2' (ix2 o j)) (Finset.sum_congr rfl fun e _ => ?_)
  rw [hx e, hw1 j e]

/-- The whole result array: every row of the table through the two-layer map. -/
def mlp (x : (⟨2, ![20000, 1280]⟩ : Shape).Idx → EReal) (w1 : (⟨2, ![1024, 1280]⟩ : Shape).Idx → EReal)
    (b1 : (⟨1, ![1024]⟩ : Shape).Idx → EReal) (w2 : (⟨2, ![512, 1024]⟩ : Shape).Idx → EReal)
    (b2 : (⟨1, ![512]⟩ : Shape).Idx → EReal) : (⟨2, ![20000, 512]⟩ : Shape).Idx → EReal :=
  fun i => entry x w1 b1 w2 b2 (i 0) (i 1)

end Cert.Mlp

end
-- ==== Proof.RefMlp.lean ====
/-
  The reference's first result is the two-layer map of the whole table.  Its program is
  `(x · W1ᵀ + b1) · W2ᵀ + b2` on all 20000 rows: two `dot_general`s over transposed weights and two biases broadcast over
  the rows.  Read at an index `i = (r, o)`, operation by operation: the outer product is the sum over `j < 1024` of the hidden
  entry `(r, j)` times `W2[o, j]`, the hidden entry is the sum over `e < 1280` of `x[r, e] · W1[j, e]` plus `b1[j]`, and the
  last bias is `b2[o]` — the entry of `Cert.Mlp.mlp`.
-/
import proofs.«121118_j50087908606361_1_alg».proof.Proof.RefRead
import proofs.«121118_j50087908606361_1_alg».proof.Proof.MlpSpec

noncomputable section

namespace Cert.ReferenceIdeal.RefValue

open Cert.ReferenceIdeal Cert.ReferenceIdeal.ReadP Idealize.ShloMosaic Idealize.ShloMosaic.ValueIdx

/-- The reference's first result, as a function of the five arrays it reads, is the two-layer map. -/
theorem protein_eq (x0 : (⟨S20000x1280, .f32⟩ : BufTy).Contents (Elt Ideal)) (x2 : (⟨S1024x1280, .f32⟩ : BufTy).Contents (Elt Ideal))
    (x3 : (⟨S1024, .f32⟩ : BufTy).Contents (Elt Ideal)) (x4 : (⟨S512x1024, .f32⟩ : BufTy).Contents (Elt Ideal))
    (x5 : (⟨S512, .f32⟩ : BufTy).Contents (Elt Ideal)) :
    val_main_v9 (F := Ideal) x0 x2 x3 x4 x5 = Cert.Mlp.mlp x0 x2 x3 x4 x5 := by
  funext i
  -- where each operation reads its operands, by coordinates
  have eb2 : idx_main_v7 (idx_main_v8 i) = ix1 (i 1) := funext fun a => Fin.ext (by
    match a with
    | ⟨0, _⟩ => rfl)
  have ew2 : ∀ k : Fin 1024, idx_main_v5 (ridx_main_v6 i k) = ix2 (i 1) k := fun k => funext fun a => Fin.ext (by
    match a with
    | ⟨0, _⟩ => rfl
    | ⟨1, _⟩ => rfl)
  have eb1 : ∀ k : Fin 1024, idx_main_v2 (idx_main_v3 (lidx_main_v6 i k)) = ix1 k := fun k => funext fun a => Fin.ext (by
    match a with
    | ⟨0, _⟩ => rfl)
  have ex : ∀ (k : Fin 1024) (e : Fin 1280), lidx_main_v1 (lidx_main_v6 i k) e = ix2 (i 0) e := fun k e => funext fun a => Fin.ext (by
    match a with
    | ⟨0, _⟩ => rfl
    | ⟨1, _⟩ => rfl)
  have ew1 : ∀ (k : Fin 1024) (e : Fin 1280), idx_main_v0 (ridx_main_v1 (lidx_main_v6 i k) e) = ix2 k e := fun k e => funext fun a => Fin.ext (by
    match a with
    | ⟨0, _⟩ => rfl
    | ⟨1, _⟩ => rfl)
  rw [val_main_v9_apply, val_main_v6_apply, val_main_v8_apply, val_main_v7_apply, eb2, Ideal.addf_def]
  unfold Cert.Mlp.mlp Cert.Mlp.entry
  refine congrArg (· + x5 (ix1 (i 1))) (Finset.sum_congr rfl fun k _ => ?_)
  rw [val_main_v4_apply, val_main_v1_apply, val_main_v3_apply, val_main_v2_apply, val_main_v5_apply, ew2 k, eb1 k, Ideal.addf_def]
  refine congrArg (fun s => (s + x3 (ix1 k)) * x4 (ix2 (i 1) k)) (Finset.sum_congr rfl fun e _ => ?_)
  rw [val_main_v0_apply, ex k e, ew1 k e]
  rfl

end Cert.ReferenceIdeal.RefValue

end
-- ==== Proof.KernelEntry.lean ====
/-
  What one grid point of the kernel stores, entry by entry.  The body loads a block `x` of 1000 rows of the table and
  the whole weight matrices and biases, and stores

      ( ( x · W1ᵀ + b1 ) · W2ᵀ ) + b2

  with both products accumulated from zero and the hidden layer passed through a change of float format, which at the
  ideal instance is the identity.  Read at `(p, q)` this is the two-layer map's entry for row `p` of the block
  (`pay_entry`): each matrix product is the sum over its contracted axis of the operands' products (the contraction index
  is one coordinate, re-indexed to `Fin 1280` and `Fin 1024`), the transposed weights read `W[c, k]` at `(k, c)`, and a bias
  broadcast over the rows reads `b[c]` at `(p, c)`.
-/
import proofs.«121118_j50087908606361_1_alg».proof.Proof.Gen.KernelIdeal.Skeleton
import proofs.«121118_j50087908606361_1_alg».proof.Proof.MlpSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-! ## The operand indices of the two matrix products, axis by axis -/

theorem first_lhs_0 (i : S1000x1024.Idx) (q : dot_S1000x1280_S1280x1024_S1000x1024_1_0_0_1_n_n.contr.Idx) :
    (dot_S1000x1280_S1280x1024_S1000x1024_1_0_0_1_n_n.lhsIdx i q 0).val = (i 0).val := by
  unfold DotDims.lhsIdx
  rw [dif_neg (show ¬(0 : Fin S1000x1280.rank) ∈ dot_S1000x1280_S1280x1024_S1000x1024_1_0_0_1_n_n.lhsBatch by decide), dif_pos (show (0 : Fin S1000x1280.rank) ∈ dot_S1000x1280_S1280x1024_S1000x1024_1_0_0_1_n_n.lhsNonContracting by decide)]
  rfl
theorem first_lhs_1 (i : S1000x1024.Idx) (q : dot_S1000x1280_S1280x1024_S1000x1024_1_0_0_1_n_n.contr.Idx) :
    (dot_S1000x1280_S1280x1024_S1000x1024_1_0_0_1_n_n.lhsIdx i q 1).val = (q ⟨0, by decide⟩).val :=
  dot_S1000x1280_S1280x1024_S1000x1024_1_0_0_1_n_n.lhsIdx_val_of_single rfl i q
theorem first_rhs_0 (i : S1000x1024.Idx) (q : dot_S1000x1280_S1280x1024_S1000x1024_1_0_0_1_n_n.contr.Idx) :
    (dot_S1000x1280_S1280x1024_S1000x1024_1_0_0_1_n_n.rhsIdx i q 0).val = (q ⟨0, by decide⟩).val :=
  dot_S1000x1280_S1280x1024_S1000x1024_1_0_0_1_n_n.rhsIdx_val_of_single rfl i q
theorem first_rhs_1 (i : S1000x1024.Idx) (q : dot_S1000x1280_S1280x1024_S1000x1024_1_0_0_1_n_n.contr.Idx) :
    (dot_S1000x1280_S1280x1024_S1000x1024_1_0_0_1_n_n.rhsIdx i q 1).val = (i 1).val := by
  unfold DotDims.rhsIdx
  rw [dif_neg (show ¬(1 : Fin S1280x1024.rank) ∈ dot_S1000x1280_S1280x1024_S1000x1024_1_0_0_1_n_n.rhsBatch by decide), dif_pos (show (1 : Fin S1280x1024.rank) ∈ dot_S1000x1280_S1280x1024_S1000x1024_1_0_0_1_n_n.rhsNonContracting by decide)]
  rfl

theorem second_lhs_0 (i : S1000x512.Idx) (q : dot_S1000x1024_S1024x512_S1000x512_1_0_0_1_n_n.contr.Idx) :
    (dot_S1000x1024_S1024x512_S1000x512_1_0_0_1_n_n.lhsIdx i q 0).val = (i 0).val := by
  unfold DotDims.lhsIdx
  rw [dif_neg (show ¬(0 : Fin S1000x1024.rank) ∈ dot_S1000x1024_S1024x512_S1000x512_1_0_0_1_n_n.lhsBatch by decide), dif_pos (show (0 : Fin S1000x1024.rank) ∈ dot_S1000x1024_S1024x512_S1000x512_1_0_0_1_n_n.lhsNonContracting by decide)]
  rfl
theorem second_lhs_1 (i : S1000x512.Idx) (q : dot_S1000x1024_S1024x512_S1000x512_1_0_0_1_n_n.contr.Idx) :
    (dot_S1000x1024_S1024x512_S1000x512_1_0_0_1_n_n.lhsIdx i q 1).val = (q ⟨0, by decide⟩).val :=
  dot_S1000x1024_S1024x512_S1000x512_1_0_0_1_n_n.lhsIdx_val_of_single rfl i q
theorem second_rhs_0 (i : S1000x512.Idx) (q : dot_S1000x1024_S1024x512_S1000x512_1_0_0_1_n_n.contr.Idx) :
    (dot_S1000x1024_S1024x512_S1000x512_1_0_0_1_n_n.rhsIdx i q 0).val = (q ⟨0, by decide⟩).val :=
  dot_S1000x1024_S1024x512_S1000x512_1_0_0_1_n_n.rhsIdx_val_of_single rfl i q
theorem second_rhs_1 (i : S1000x512.Idx) (q : dot_S1000x1024_S1024x512_S1000x512_1_0_0_1_n_n.contr.Idx) :
    (dot_S1000x1024_S1024x512_S1000x512_1_0_0_1_n_n.rhsIdx i q 1).val = (i 1).val := by
  unfold DotDims.rhsIdx
  rw [dif_neg (show ¬(1 : Fin S1024x512.rank) ∈ dot_S1000x1024_S1024x512_S1000x512_1_0_0_1_n_n.rhsBatch by decide), dif_pos (show (1 : Fin S1024x512.rank) ∈ dot_S1000x1024_S1024x512_S1000x512_1_0_0_1_n_n.rhsNonContracting by decide)]
  rfl

/-! ## Each product as a sum over its contracted axis -/

/-- The body's first matrix product into the zero accumulator, read at `(p, c)`: the plain sum over the contracted axis. -/
theorem first_product (a : FVec Ideal S1000x1280 .bf16) (b : FVec Ideal S1280x1024 .bf16) (p : Fin 1000) (c : Fin 1024) :
    matmul dot_S1000x1280_S1280x1024_S1000x1024_1_0_0_1_n_n none a b (constant (F := Ideal) S1000x1024 .f32 0x00000000#32) (ix2 p c)
      = ∑ k : Fin 1280, a (ix2 p k) * b (ix2 k c) := by
  simp only [matmul]
  rw [Ideal.matmul_constant_zero_apply, ← Equiv.sum_comp (contrEquiv1 dot_S1000x1280_S1280x1024_S1000x1024_1_0_0_1_n_n 1280 rfl rfl).symm]
  refine Finset.sum_congr rfl fun k _ => ?_
  have hk := contrEquiv1_symm_val dot_S1000x1280_S1280x1024_S1000x1024_1_0_0_1_n_n 1280 rfl rfl k
  have el : dot_S1000x1280_S1280x1024_S1000x1024_1_0_0_1_n_n.lhsIdx (ix2 p c) ((contrEquiv1 dot_S1000x1280_S1280x1024_S1000x1024_1_0_0_1_n_n 1280 rfl rfl).symm k) = ix2 p k := funext fun a => Fin.ext (by
    match a with
    | ⟨0, _⟩ => exact first_lhs_0 _ _
    | ⟨1, _⟩ => exact (first_lhs_1 _ _).trans hk)
  have er : dot_S1000x1280_S1280x1024_S1000x1024_1_0_0_1_n_n.rhsIdx (ix2 p c) ((contrEquiv1 dot_S1000x1280_S1280x1024_S1000x1024_1_0_0_1_n_n 1280 rfl rfl).symm k) = ix2 k c := funext fun a => Fin.ext (by
    match a with
    | ⟨0, _⟩ => exact (first_rhs_0 _ _).trans hk
    | ⟨1, _⟩ => exact first_rhs_1 _ _)
  rw [el, er]

/-- The body's second matrix product into the zero accumulator, read at `(p, c)`: the plain sum over the contracted axis. -/
theorem second_product (a : FVec Ideal S1000x1024 .bf16) (b : FVec Ideal S1024x512 .bf16) (p : Fin 1000) (c : Fin 512) :
    matmul dot_S1000x1024_S1024x512_S1000x512_1_0_0_1_n_n none a b (constant (F := Ideal) S1000x512 .f32 0x00000000#32) (ix2 p c)
      = ∑ k : Fin 1024, a (ix2 p k) * b (ix2 k c) := by
  simp only [matmul]
  rw [Ideal.matmul_constant_zero_apply, ← Equiv.sum_comp (contrEquiv1 dot_S1000x1024_S1024x512_S1000x512_1_0_0_1_n_n 1024 rfl rfl).symm]
  refine Finset.sum_congr rfl fun k _ => ?_
  have hk := contrEquiv1_symm_val dot_S1000x1024_S1024x512_S1000x512_1_0_0_1_n_n 1024 rfl rfl k
  have el : dot_S1000x1024_S1024x512_S1000x512_1_0_0_1_n_n.lhsIdx (ix2 p c) ((contrEquiv1 dot_S1000x1024_S1024x512_S1000x512_1_0_0_1_n_n 1024 rfl rfl).symm k) = ix2 p k := funext fun a => Fin.ext (by
    match a with
    | ⟨0, _⟩ => exact second_lhs_0 _ _
    | ⟨1, _⟩ => exact (second_lhs_1 _ _).trans hk)
  have er : dot_S1000x1024_S1024x512_S1000x512_1_0_0_1_n_n.rhsIdx (ix2 p c) ((contrEquiv1 dot_S1000x1024_S1024x512_S1000x512_1_0_0_1_n_n 1024 rfl rfl).symm k) = ix2 k c := funext fun a => Fin.ext (by
    match a with
    | ⟨0, _⟩ => exact (second_rhs_0 _ _).trans hk
    | ⟨1, _⟩ => exact second_rhs_1 _ _)
  rw [el, er]

/-! ## The weights transposed, and the biases broadcast over the rows -/

/-- The first layer's weights as the body transposes them: `(e, j)` reads `W1[j, e]`. -/
theorem w1T_apply (w : FVec Ideal S1024x1280 .bf16) (e : Fin 1280) (j : Fin 1024) :
    transpose S1280x1024 [1, 0] (shapeCast S1024x1280 w shapeCasts_S1024x1280_S1024x1280) transposes_S1024x1280_p1_0_S1280x1024 (ix2 e j)
      = w (ix2 j e) := by
  rw [transpose_ix2_apply, shapeCast_self]

/-- The second layer's weights as the body transposes them: `(j, o)` reads `W2[o, j]`. -/
theorem w2T_apply (w : FVec Ideal S512x1024 .bf16) (j : Fin 1024) (o : Fin 512) :
    transpose S1024x512 [1, 0] (shapeCast S512x1024 w shapeCasts_S512x1024_S512x1024) transposes_S512x1024_p1_0_S1024x512 (ix2 j o)
      = w (ix2 o j) := by
  rw [transpose_ix2_apply, shapeCast_self]

/-- The first bias as a row over the 1000 rows of the block: `(p, j)` reads `b1[j]`. -/
theorem b1_row_apply (b : FVec Ideal S1024 .f32) (p : Fin 1000) (j : Fin 1024) :
    broadcastTo S1000x1024 (shapeCast S1x1024 b shapeCasts_S1024_S1x1024) broadcasts_S1x1024_S1000x1024 (ix2 p j) = b (ix1 j) := by
  rw [broadcastTo_1b_ab_apply, shapeCast_a_1a_apply]

/-- The second bias as a row over the 1000 rows of the block: `(p, o)` reads `b2[o]`. -/
theorem b2_row_apply (b : FVec Ideal S512 .f32) (p : Fin 1000) (o : Fin 512) :
    broadcastTo S1000x512 (shapeCast S1x512 b shapeCasts_S512_S1x512) broadcasts_S1x512_S1000x512 (ix2 p o) = b (ix1 o) := by
  rw [broadcastTo_1b_ab_apply, shapeCast_a_1a_apply]

/-! ## The stored value at an index -/

/-- What the body stores, at `(p, q)`, is the two-layer map's entry for row `p` of the loaded block. -/
theorem pay_entry (x : Vec Ideal S1000x1280 .f32) (w1 : Vec Ideal S1024x1280 .bf16) (b1 : Vec Ideal S1024 .f32)
    (w2 : Vec Ideal S512x1024 .bf16) (b2 : Vec Ideal S512 .f32) (p : Fin 1000) (q : Fin 512) :
    k0_pay1 (F := Ideal) x w1 b1 w2 b2 (ix2 p q) = Cert.Mlp.entry (R := 1000) x w1 b1 w2 b2 p q := by
  unfold k0_pay1
  dsimp only
  rw [addf_apply, b2_row_apply, second_product]
  unfold Cert.Mlp.entry
  refine congrArg (· + b2 (ix1 q)) (Finset.sum_congr rfl fun j _ => ?_)
  rw [truncf_apply, addf_apply, b1_row_apply, first_product, w2T_apply]
  refine congrArg (fun s => (s + b1 (ix1 j)) * w2 (ix2 q j)) (Finset.sum_congr rfl fun e _ => ?_)
  rw [truncf_apply, w1T_apply]

end Cert.KernelIdeal.Body

end
-- ==== Proof.KernelRegion.lean ====
/-
  The kernel's first result after the run.  The grid has 20 points; point `t` loads rows `1000·t … 1000·t + 999` of the
  table (window 0) together with the whole weight matrices and biases (windows 1 to 4, the same block at every point),
  and writes back rows `1000·t … 1000·t + 999` of the result (window 5).  What it writes back is that block of ONE
  whole-array function, the two-layer map `Cert.Mlp.mlp` of the argument arrays (`point_block`): entry `(p, q)` of the
  stored value is the map's entry for row `p` of the loaded block (`Body.pay_entry`), row `p` of the loaded block is row
  `1000·t + p` of the table, and the weights the region stages are the argument arrays (the host's change of their float
  format before the launch is the identity at the ideal instance).  The twenty blocks tile the 20000 rows (row `r` is
  in block `r / 1000`), so the array ends at the map of the arguments (`final`).
-/
import proofs.«121118_j50087908606361_1_alg».proof.Proof.Gen.KernelIdeal.Frame
import proofs.«121118_j50087908606361_1_alg».proof.Proof.KernelEntry

set_option maxRecDepth 16384

noncomputable section

namespace Cert.KernelIdeal.Region

open Cert.KernelIdeal Cert.KernelIdeal.Gen Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ)

theorem zero2 : (![0, 0] : Fin 2 → Nat) = fun _ => 0 := funext fun a => by fin_cases a <;> rfl
theorem zero1 : (![0] : Fin 1 → Nat) = fun _ => 0 := funext fun a => by fin_cases a; rfl

/-- The result array as one function of the argument arrays on core `c`. -/
def result (c : Dev nD) : S20000x512.Idx → EReal :=
  Cert.Mlp.mlp (m ((c : Thread nD τ).loc main_arg0)) (m ((c : Thread nD τ).loc main_arg2)) (m ((c : Thread nD τ).loc main_arg3))
    (m ((c : Thread nD τ).loc main_arg4)) (m ((c : Thread nD τ).loc main_arg5))

/-- The printed index maps over the grid: the table's window and the result's window are at block `t` of the rows,
    every other window at its one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- Every block of rows of the result is some point's. -/
theorem idx_onto : ∀ b : Fin 20, ∃ t : Fin cfg0.N, win0_5.index t = ![b.val, 0] :=
  (by decide +kernel : ∀ b : Fin 20, ∃ t : Fin grid0.N, win0_5.index t = ![b.val, 0])

theorem point_lt (t : Fin cfg0.N) : t.val < 20 := Nat.lt_of_lt_of_eq t.isLt N_0

/-! ## The weights as the region finds them -/

/-- The first layer's weights the region stages are the argument's: the host converts their format before the launch. -/
theorem staged_w1 (c : Dev nD) : (V m c main_v0 : S1024x1280.Idx → EReal) = m ((c : Thread nD τ).loc main_arg2) := by
  show StableHlo.after hostOps0 (fun b => m (c, b)) (Proc.devRef .tc main_v0) = _
  after_results
  rfl

/-- The second layer's weights the region stages are the argument's. -/
theorem staged_w2 (c : Dev nD) : (V m c main_v1 : S512x1024.Idx → EReal) = m ((c : Thread nD τ).loc main_arg4) := by
  show StableHlo.after hostOps0 (fun b => m (c, b)) (Proc.devRef .tc main_v1) = _
  after_results
  rfl

/-! ## Each loaded block, read where it lies in its array -/

/-- Row `p` of the table's block at point `t` is row `1000·t + p` of the table. -/
theorem table_block (c : Dev nD) (t : Fin cfg0.N) (p : Fin 1000) (e : Fin 1280) (hp : t.val * 1000 + p.val < 20000) :
    iblk m c 0 t (ix2 p e) = m ((c : Thread nD τ).loc main_arg0) (ix2 ⟨t.val * 1000 + p.val, hp⟩ e) := by
  show V m c main_arg0 (((cfg0.win 0).blk t).view.emb (ix2 p e)) = _
  refine (congrFun (V_main_arg0 m c) _).trans (congrArg (m ((c : Thread nD τ).loc main_arg0)) (funext fun a => Fin.ext ?_))
  obtain ⟨e0, e1, -⟩ := idx_facts t
  match a with
  | ⟨0, _⟩ => show win0_0.index t (0 : Fin 2) * 1000 + 1 * p.val = t.val * 1000 + p.val; omega
  | ⟨1, _⟩ => show win0_0.index t (1 : Fin 2) * 1280 + 1 * e.val = e.val; omega

/-- The staged first-layer weights are the argument's, entry by entry. -/
theorem w1_block (c : Dev nD) (t : Fin cfg0.N) (j : Fin 1024) (e : Fin 1280) :
    iblk m c 1 t (ix2 j e) = m ((c : Thread nD τ).loc main_arg2) (ix2 j e) := by
  show V m c main_v0 (((cfg0.win 1).blk t).view.emb (ix2 j e)) = _
  refine (congrFun (staged_w1 m c) _).trans (congrArg (m ((c : Thread nD τ).loc main_arg2)) (funext fun a => Fin.ext ?_))
  obtain ⟨-, -, e2, e3, -⟩ := idx_facts t
  match a with
  | ⟨0, _⟩ => show win0_1.index t (0 : Fin 2) * 1024 + 1 * j.val = j.val; omega
  | ⟨1, _⟩ => show win0_1.index t (1 : Fin 2) * 1280 + 1 * e.val = e.val; omega

/-- The staged first bias is the argument's. -/
theorem b1_block (c : Dev nD) (t : Fin cfg0.N) (j : Fin 1024) :
    iblk m c 2 t (ix1 j) = m ((c : Thread nD τ).loc main_arg3) (ix1 j) := by
  show V m c main_arg3 (((cfg0.win 2).blk t).view.emb (ix1 j)) = _
  refine (congrFun (V_main_arg3 m c) _).trans (congrArg (m ((c : Thread nD τ).loc main_arg3)) (funext fun a => Fin.ext ?_))
  obtain ⟨-, -, -, -, e4, -⟩ := idx_facts t
  match a with
  | ⟨0, _⟩ => show win0_2.index t (0 : Fin 1) * 1024 + 1 * j.val = j.val; omega

/-- The staged second-layer weights are the argument's, entry by entry. -/
theorem w2_block (c : Dev nD) (t : Fin cfg0.N) (o : Fin 512) (j : Fin 1024) :
    iblk m c 3 t (ix2 o j) = m ((c : Thread nD τ).loc main_arg4) (ix2 o j) := by
  show V m c main_v1 (((cfg0.win 3).blk t).view.emb (ix2 o j)) = _
  refine (congrFun (staged_w2 m c) _).trans (congrArg (m ((c : Thread nD τ).loc main_arg4)) (funext fun a => Fin.ext ?_))
  obtain ⟨-, -, -, -, -, e5, e6, -⟩ := idx_facts t
  match a with
  | ⟨0, _⟩ => show win0_3.index t (0 : Fin 2) * 512 + 1 * o.val = o.val; omega
  | ⟨1, _⟩ => show win0_3.index t (1 : Fin 2) * 1024 + 1 * j.val = j.val; omega

/-- The staged second bias is the argument's. -/
theorem b2_block (c : Dev nD) (t : Fin cfg0.N) (o : Fin 512) :
    iblk m c 4 t (ix1 o) = m ((c : Thread nD τ).loc main_arg5) (ix1 o) := by
  show V m c main_arg5 (((cfg0.win 4).blk t).view.emb (ix1 o)) = _
  refine (congrFun (V_main_arg5 m c) _).trans (congrArg (m ((c : Thread nD τ).loc main_arg5)) (funext fun a => Fin.ext ?_))
  obtain ⟨-, -, -, -, -, -, -, e7, -⟩ := idx_facts t
  match a with
  | ⟨0, _⟩ => show win0_4.index t (0 : Fin 1) * 512 + 1 * o.val = o.val; omega

/-- Entry `(p, q)` of the result's block at point `t` lies at `(1000·t + p, q)` of the result. -/
theorem result_block_at (t : Fin cfg0.N) (p : Fin 1000) (q : Fin 512) (hp : t.val * 1000 + p.val < 20000) :
    ((cfg0.win 5).blk t).view.emb (ix2 p q) = (ix2 ⟨t.val * 1000 + p.val, hp⟩ q : S20000x512.Idx) := by
  refine funext fun a => Fin.ext ?_
  obtain ⟨-, -, -, -, -, -, -, -, e8, e9⟩ := idx_facts t
  match a with
  | ⟨0, _⟩ => show win0_5.index t (0 : Fin 2) * 1000 + 1 * p.val = t.val * 1000 + p.val; omega
  | ⟨1, _⟩ => show win0_5.index t (1 : Fin 2) * 512 + 1 * q.val = q.val; omega

/-! ## What a point writes back, and the array after the run -/

/-- WHAT POINT `t` WRITES BACK is block `t` of the two-layer map of the argument arrays. -/
theorem point_block (c : Dev nD) (t : Fin cfg0.N) :
    (dats m 0 c).flushed 5 t = ((cfg0.win 5).blk t).view.read (Elt Ideal) (result m c) := by
  show (cfg0.win 5).cut (grid0.coords t) ((dats m 0 c).after 5 t) = _
  rw [after0_5]
  unfold out0_5
  rw [View.canon_unit_zero zero2]
  simp only [View.ld_unit_zero (S := S1000x1280) zero2, View.ld_unit_zero (S := S1024x1280) zero2, View.ld_unit_zero (S := S1024) zero1,
    View.ld_unit_zero (S := S512x1024) zero2, View.ld_unit_zero (S := S512) zero1]
  refine funext fun (j : S1000x512.Idx) => ?_
  obtain ⟨p, q, rfl⟩ : ∃ (p : Fin 1000) (q : Fin 512), j = ix2 p q := ⟨j 0, j 1, eq_ix2 j⟩
  have hp : t.val * 1000 + p.val < 20000 := by have := point_lt t; have := p.isLt; omega
  show k0_pay1 (F := Ideal) (iblk m c 0 t) (iblk m c 1 t) (iblk m c 2 t) (iblk m c 3 t) (iblk m c 4 t) (ix2 p q)
    = result m c (((cfg0.win 5).blk t).view.emb (ix2 p q))
  rw [result_block_at t p q hp]
  refine (Body.pay_entry (iblk m c 0 t) (iblk m c 1 t) (iblk m c 2 t) (iblk m c 3 t) (iblk m c 4 t) p q).trans ?_
  show _ = Cert.Mlp.entry (R := 20000) (m ((c : Thread nD τ).loc main_arg0)) (m ((c : Thread nD τ).loc main_arg2)) (m ((c : Thread nD τ).loc main_arg3))
    (m ((c : Thread nD τ).loc main_arg4)) (m ((c : Thread nD τ).loc main_arg5)) ⟨t.val * 1000 + p.val, hp⟩ q
  exact Cert.Mlp.entry_congr q (fun e => table_block m c t p e hp) (fun j e => w1_block m c t j e) (fun j => b1_block m c t j)
    (fun j => w2_block m c t q j) (b2_block m c t q)

/-- An index of the result is in point `t`'s block iff each coordinate is in the block's range on its axis. -/
theorem mem_block (t : Fin cfg0.N) (i : S20000x512.Idx) :
    i ∈ ((cfg0.win 5).blk t).view.set ↔ ∀ a : Fin 2, win0_5.index t a * S1000x512.size a ≤ (i a).val ∧ (i a).val < win0_5.index t a * S1000x512.size a + S1000x512.size a := by
  show i ∈ ((View.whole main_v2).slice (win0_5.rect t)).set ↔ _
  rw [View.set_slice_whole, Rect.mem_set_unit]
  exact Iff.rfl

/-- Every index of the result is in the block of the point its row belongs to. -/
theorem covered (i : S20000x512.Idx) :
    ∃ t : Fin cfg0.N, (cfg0.win 5).flush t = true ∧ i ∈ ((cfg0.win 5).blk t).view.set := by
  have hi0 : (i 0).val < 20000 := (i 0).isLt
  have hi1 : (i 1).val < 512 := (i 1).isLt
  obtain ⟨t, ht⟩ := idx_onto ⟨(i 0).val / 1000, by omega⟩
  have q0 : win0_5.index t (0 : Fin 2) = (i 0).val / 1000 := congrFun ht 0
  have q1 : win0_5.index t (1 : Fin 2) = 0 := congrFun ht 1
  refine ⟨t, flush0_5 t, ?_⟩
  rw [mem_block]
  intro a
  match a with
  | ⟨0, _⟩ => show win0_5.index t (0 : Fin 2) * 1000 ≤ (i 0).val ∧ (i 0).val < win0_5.index t (0 : Fin 2) * 1000 + 1000; omega
  | ⟨1, _⟩ => show win0_5.index t (1 : Fin 2) * 512 ≤ (i 1).val ∧ (i 1).val < win0_5.index t (1 : Fin 2) * 512 + 512; omega

/-- THE ARRAY after the run: the two-layer map of the argument arrays. -/
theorem final (c : Dev nD) : (dats m 0 c).arrAt 5 cfg0.N = result m c :=
  (dats m 0 c).arrAt_eq_of_cover 5 (result m c) (fun t _ => point_block m c t) covered

end Cert.KernelIdeal.Region

end
-- ==== Proof.KernelTail.lean ====
/-
  The kernel's second result.  After the region, the kernel's program runs the cell branch on the host: it wraps negative
  row numbers (adding 20000), gathers the 3 × 4096 selected rows of the table, averages and maximises them over the
  4096 members and over pairs of adjacent columns, joins the two poolings, and applies a second two-layer map with its
  own weights.  The reference's program ends with these same operations on the same arrays.  The region leaves the six
  arrays this stretch reads as they were launched (the table is an input window, the other five are no window's array),
  so the kernel's second result is the reference's function of the launch contents (`second_result`).  The stretch is
  carried as that one function and never opened.
-/
import proofs.«121118_j50087908606361_1_alg».proof.Proof.Gen.KernelIdeal.Frame
import proofs.«121118_j50087908606361_1_alg».proof.Proof.RefRead

set_option maxRecDepth 16384

noncomputable section

namespace Cert.KernelIdeal.Tail

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- The core's buffers as the region leaves them: its arrays at what the run computed, every other buffer as the region
    found it. -/
abbrev left (c : Dev nD) : Valuation τ sig (Elt F) :=
  Pipeline.withArrays (cfgs 0).spec c (V0 m c) fun w => (dats m 0 c).arrAt w (cfgs 0).N

/-- The table is an input window's array: the region leaves it as launched. -/
theorem left_table (c : Dev nD) : left m c (Proc.devRef .tc main_arg0) = m ((c : Thread nD τ).loc main_arg0) :=
  (Pipeline.withArrays_arr spec0 launch0.win.arr_inj c _ _ 0).trans
    (((dats m 0 c).arrAt_in 0 rfl _).trans ((A_eq m c 0).trans (V_main_arg0 m c)))

/-- The row numbers are no window's array: the region leaves them as launched. -/
theorem left_rows (c : Dev nD) : left m c (Proc.devRef .tc main_arg1) = m ((c : Thread nD τ).loc main_arg1) :=
  (Pipeline.withArrays_of_ne _ c (V0 m c) _ main_arg1 (by exact (by decide : ∀ w, Pipeline.arrRef spec0 w ≠ main_arg1))).trans (V_main_arg1 m c)

theorem left_w1 (c : Dev nD) : left m c (Proc.devRef .tc main_arg6) = m ((c : Thread nD τ).loc main_arg6) :=
  (Pipeline.withArrays_of_ne _ c (V0 m c) _ main_arg6 (by exact (by decide : ∀ w, Pipeline.arrRef spec0 w ≠ main_arg6))).trans (V_main_arg6 m c)

theorem left_b1 (c : Dev nD) : left m c (Proc.devRef .tc main_arg7) = m ((c : Thread nD τ).loc main_arg7) :=
  (Pipeline.withArrays_of_ne _ c (V0 m c) _ main_arg7 (by exact (by decide : ∀ w, Pipeline.arrRef spec0 w ≠ main_arg7))).trans (V_main_arg7 m c)

theorem left_w2 (c : Dev nD) : left m c (Proc.devRef .tc main_arg8) = m ((c : Thread nD τ).loc main_arg8) :=
  (Pipeline.withArrays_of_ne _ c (V0 m c) _ main_arg8 (by exact (by decide : ∀ w, Pipeline.arrRef spec0 w ≠ main_arg8))).trans (V_main_arg8 m c)

theorem left_b2 (c : Dev nD) : left m c (Proc.devRef .tc main_arg9) = m ((c : Thread nD τ).loc main_arg9) :=
  (Pipeline.withArrays_of_ne _ c (V0 m c) _ main_arg9 (by exact (by decide : ∀ w, Pipeline.arrRef spec0 w ≠ main_arg9))).trans (V_main_arg9 m c)

set_option maxHeartbeats 4000000 in
/-- The host stretch after the region, run from any buffer contents `W`, leaves in the second result the reference's
    cell-branch function of the six arrays it reads. -/
theorem stretch (W : Valuation τ sig (Elt F)) :
    StableHlo.after hostOps1 W (Proc.devRef .tc main_v26)
      = Cert.ReferenceIdeal.ReadP.val_main_v33 (F := F) (W (Proc.devRef .tc main_arg0)) (W (Proc.devRef .tc main_arg1))
          (W (Proc.devRef .tc main_arg6)) (W (Proc.devRef .tc main_arg7)) (W (Proc.devRef .tc main_arg8)) (W (Proc.devRef .tc main_arg9)) := by
  after_results
  rfl

/-- THE SECOND RESULT after the run: the reference's cell-branch function of the launch contents. -/
theorem second_result (c : Dev nD) :
    Pipeline.afterTail₀ cfgs (dats m) 0 (V0 m) [hostOps1] c main_v26
      = Cert.ReferenceIdeal.ReadP.val_main_v33 (F := F) (m ((c : Thread nD τ).loc main_arg0)) (m ((c : Thread nD τ).loc main_arg1))
          (m ((c : Thread nD τ).loc main_arg6)) (m ((c : Thread nD τ).loc main_arg7)) (m ((c : Thread nD τ).loc main_arg8))
          (m ((c : Thread nD τ).loc main_arg9)) := by
  unfold Pipeline.afterTail₀
  show StableHlo.after hostOps1 (left m c) (Proc.devRef .tc main_v26) = _
  rw [stretch, left_table, left_rows, left_w1, left_b1, left_w2, left_b2]

end Cert.KernelIdeal.Tail

end
-- ==== Proof.lean ====
/-
  Both programs compute, from a table of 20000 protein embeddings, (1) a two-layer affine map of every row and (2) a
  small "cell" branch: three gathered sets of 4096 rows, pooled by mean and by maximum, through a second two-layer map.

  (1) The kernel runs the map on a grid of 20 blocks of 1000 rows, with matrix products accumulated from zero and
  changes of float format between the layers; the reference runs it on the whole table with two `dot_general`s.  Over the
  extended reals a change of format is the identity and each product is the plain sum over the contracted axis, so both
  are the function `Cert.Mlp.mlp` of the argument arrays: the kernel by `Cert.KernelIdeal.Region.final` (every block a
  point writes back is a block of that function, and the blocks tile the rows), the reference by
  `Cert.ReferenceIdeal.RefValue.protein_eq`.  No sum is rearranged and nothing is cancelled, so the equality holds for
  every input, finite or not.

  (2) The cell branch is the same sequence of host operations in both programs, applied to arrays the kernel's region
  leaves untouched; it is carried as one function of those arrays (`Cert.KernelIdeal.Tail.second_result`).

  The frames: the two kernel programs' are the generated ones; the reference's is its run with the results dropped.
  The idealization rewrote no operation, so `preserves` has nothing to state.
-/
import proofs.«121118_j50087908606361_1_alg».proof.Defs
import proofs.«121118_j50087908606361_1_alg».proof.Proof.Gen.Kernel
import proofs.«121118_j50087908606361_1_alg».proof.Proof.Gen.Kernel.Skeleton
import proofs.«121118_j50087908606361_1_alg».proof.Proof.Gen.Kernel.Launch
import proofs.«121118_j50087908606361_1_alg».proof.Proof.Gen.Kernel.Points
import proofs.«121118_j50087908606361_1_alg».proof.Proof.Gen.Kernel.Frame
import proofs.«121118_j50087908606361_1_alg».proof.Proof.Gen.KernelIdeal
import proofs.«121118_j50087908606361_1_alg».proof.Proof.Gen.KernelIdeal.Skeleton
import proofs.«121118_j50087908606361_1_alg».proof.Proof.Gen.KernelIdeal.Launch
import proofs.«121118_j50087908606361_1_alg».proof.Proof.Gen.KernelIdeal.Points
import proofs.«121118_j50087908606361_1_alg».proof.Proof.Gen.KernelIdeal.Frame
import proofs.«121118_j50087908606361_1_alg».proof.Proof.Gen.ReferenceIdeal
import proofs.«121118_j50087908606361_1_alg».proof.Proof.Gen.Pre_finite_inputs
import proofs.«121118_j50087908606361_1_alg».proof.Proof.RefRun
import proofs.«121118_j50087908606361_1_alg».proof.Proof.RefRead
import proofs.«121118_j50087908606361_1_alg».proof.Proof.RefMlp
import proofs.«121118_j50087908606361_1_alg».proof.Proof.KernelRegion
import proofs.«121118_j50087908606361_1_alg».proof.Proof.KernelTail
import Idealize.ShloMosaic.Adequacy
import Idealize.ShloMosaic.Init

set_option maxRecDepth 16384

noncomputable section

namespace Cert.Proof

open Idealize.ShloMosaic Idealize.ShloMosaic.TcCoe Idealize.SL.Sem

/-! ## The idealized kernel's run, with both results named -/

section KernelRun
open Cert.KernelIdeal Cert.KernelIdeal.Gen

/-- Every run of the idealized kernel's program ends with the first result at the two-layer map of the arguments, the
    second at the cell branch's function of them, and the arguments unchanged. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v2) = Cert.KernelIdeal.Region.result m c
      ∧ r.2.mem ((c.tc : Thread nD τ).loc main_v26) = Cert.ReferenceIdeal.ReadP.val_main_v33 (F := Ideal)
          (m ((c.tc : Thread nD τ).loc main_arg0)) (m ((c.tc : Thread nD τ).loc main_arg1)) (m ((c.tc : Thread nD τ).loc main_arg6))
          (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).1 5).trans (Cert.KernelIdeal.Region.final m c),
      ((h c).2 main_v26 (Pipeline.mem_restRefs_of main_v26 (by decide) (by decide))).trans (Cert.KernelIdeal.Tail.second_result m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 2).trans (((dats m 0 c).arrAt_in 2 rfl _).trans ((A_eq m c 2).trans (V_main_arg3 m c))),
      ((h c).2 main_arg4 (Pipeline.mem_restRefs_of main_arg4 (by decide) (by decide))).trans (W_main_arg4 m (dats m) c),
      ((h c).1 4).trans (((dats m 0 c).arrAt_in 4 rfl _).trans ((A_eq m c 4).trans (V_main_arg5 m c))),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c)⟩)
    (run_main m ρ)

end KernelRun

/-! ## The claims -/

theorem frame_kernel : Cert.frame_Kernel := fun m ρ _ => Cert.Kernel.Gen.frame m ρ

theorem frame_kernel_ideal : Cert.frame_KernelIdeal := fun m ρ _ => Cert.KernelIdeal.Gen.frame m ρ

/-- The reference is a host program: its frame is its run with the two results dropped. -/
theorem frame_reference : Cert.frame_ReferenceIdeal := fun m ρ _ =>
  (θ_run Cert.ReferenceIdeal.defs _ _).mono (fun _ h c => (h c).2.2) (Cert.ReferenceIdeal.RunP.run (F := Ideal) m ρ)

/-- Both programs end with both results at the same functions of arguments that agree. -/
theorem algebraic : Cert.algebraic_KernelIdeal_ReferenceIdeal := by
  intro m ρ m' ρ' _ hagree
  refine ⟨_, _, kernel_run m ρ, ?_⟩
  refine (θ_run Cert.ReferenceIdeal.defs _ _).mono (fun _ h c => ⟨?_, ?_, (h c).2.2⟩)
    (Cert.ReferenceIdeal.RunP.run (F := Ideal) m' ρ')
  · rw [(h c).1, Cert.ReferenceIdeal.ReadP.val_main_v9_eq, Cert.ReferenceIdeal.RefValue.protein_eq,
      (hagree c).1, (hagree c).2.2.1, (hagree c).2.2.2.1, (hagree c).2.2.2.2.1, (hagree c).2.2.2.2.2.1]
    rfl
  · rw [(h c).2.1, Cert.ReferenceIdeal.ReadP.val_main_v33_eq,
      (hagree c).1, (hagree c).2.1, (hagree c).2.2.2.2.2.2.1, (hagree c).2.2.2.2.2.2.2.1, (hagree c).2.2.2.2.2.2.2.2.1, (hagree c).2.2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
